-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S256x512 : Shape := ⟨2, ![256, 512]⟩
abbrev S256 : Shape := ⟨1, ![256]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x256x256 .f32) (main_arg1 : FVec F S256x512 .f32) (main_arg2 : FVec F S256 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x256x256 : Shape := ⟨3, ![4, 256, 256]⟩
abbrev S256x512 : Shape := ⟨2, ![256, 512]⟩
abbrev S256 : Shape := ⟨1, ![256]⟩
abbrev S256x256 : Shape := ⟨2, ![256, 256]⟩
abbrev S1x256x256 : Shape := ⟨3, ![1, 256, 256]⟩
abbrev S4x256x256x256 : Shape := ⟨4, ![4, 256, 256, 256]⟩
abbrev S1x64x256 : Shape := ⟨3, ![1, 64, 256]⟩
abbrev S1x128x256 : Shape := ⟨3, ![1, 128, 256]⟩
abbrev S1x64x128x256 : Shape := ⟨4, ![1, 64, 128, 256]⟩
abbrev S64x256 : Shape := ⟨2, ![64, 256]⟩
abbrev S128x256 : Shape := ⟨2, ![128, 256]⟩
abbrev S64x1x256 : Shape := ⟨3, ![64, 1, 256]⟩
abbrev S64x128x256 : Shape := ⟨3, ![64, 128, 256]⟩
abbrev S1x1x256 : Shape := ⟨3, ![1, 1, 256]⟩

abbrev nBuf : Space → Nat
  | .hbm => 13
  | .vmem => 15
  | .smem => 0
  | _ => 0

abbrev bufTy : (tb : Table) → Fin (tcTables nBuf tb) → BufTy
  | .hbm, ⟨0, _⟩ => ⟨S4x256x256, .f32⟩
  | .hbm, ⟨1, _⟩ => ⟨S256x512, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S4x256x256, .bf16⟩
  | .hbm, ⟨8, _⟩ => ⟨S256x256, .bf16⟩
  | .hbm, ⟨9, _⟩ => ⟨S256x256, .bf16⟩
  | .hbm, ⟨10, _⟩ => ⟨S4x256x256, .f32⟩
  | .hbm, ⟨11, _⟩ => ⟨S4x256x256, .f32⟩
  | .hbm, ⟨12, _⟩ => ⟨S4x256x256x256, .f32⟩
  | .local _ .vmem, ⟨0, _⟩ => ⟨S1x256x256, .bf16⟩
  | .local _ .vmem, ⟨1, _⟩ => ⟨S1x256x256, .bf16⟩
  | .local _ .vmem, ⟨2, _⟩ => ⟨S256x256, .bf16⟩
  | .local _ .vmem, ⟨3, _⟩ => ⟨S256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x64x256, .f32⟩
  | .local _ .vmem, ⟨9, _⟩ => ⟨S1x64x256, .f32⟩
  | .local _ .vmem, ⟨10, _⟩ => ⟨S1x128x256, .f32⟩
  | .local _ .vmem, ⟨11, _⟩ => ⟨S1x128x256, .f32⟩
  | .local _ .vmem, ⟨12, _⟩ => ⟨S256, .f32⟩
  | .local _ .vmem, ⟨13, _⟩ => ⟨S1x64x128x256, .f32⟩
  | .local _ .vmem, ⟨14, _⟩ => ⟨S1x64x128x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x64x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  slices_S256x512_S256x256_0_0 : S256x512.Slices ![0, 0] S256x256
  slices_S256x512_S256x256_0_256 : S256x512.Slices ![0, 256] S256x256
  transposes_S256x256_S256x256_1_0 : S256x256.Transposes [1, 0] S256x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256_S256_0 : ∀ a, (![0] : Fin 1 → Nat) a + S256.size a ≤ S256.size a
  h_S256 : 0 < S256.numel
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  shapeCasts_S256_S1x1x256 : S256.ShapeCasts S1x1x256
  broadcasts_S1x1x256_S64x128x256 : S1x1x256.Broadcasts S64x128x256
  inb_S1x64x128x256_S1x64x128x256_0_0_0_0 : ∀ a, (![0, 0, 0, 0] : Fin 4 → Nat) a + S1x64x128x256.size a ≤ S1x64x128x256.size a
  h_S1x64x128x256 : 0 < S1x64x128x256.numel
  shapeCasts_S1x64x128x256_S64x128x256 : S1x64x128x256.ShapeCasts S64x128x256
  shapeCasts_S64x128x256_S1x64x128x256 : S64x128x256.ShapeCasts S1x64x128x256
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x256x256.size a
  hwx0_0 : ∀ i : grid0.Coords, EltTy.bits .bf16 = 32 ∨ (Rect.block (s := S4x256x256) S1x256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S4x256x256.size a
  hwx0_3 : ∀ i : grid0.Coords, EltTy.bits .f32 = 32 ∨ (Rect.block (s := S4x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S4x256x256.size a
  hwx0_4 : ∀ i : grid0.Coords, EltTy.bits .f32 = 32 ∨ (Rect.block (s := S4x256x256) S1x256x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S4x256x256.size a
  hwx1_0 : ∀ i : grid1.Coords, EltTy.bits .f32 = 32 ∨ (Rect.block (s := S4x256x256) S1x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S4x256x256.size a
  hwx1_1 : ∀ i : grid1.Coords, EltTy.bits .f32 = 32 ∨ (Rect.block (s := S4x256x256) S1x128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x256.size a ≤ S4x256x256x256.size a
  hwx1_3 : ∀ i : grid1.Coords, EltTy.bits .f32 = 32 ∨ (Rect.block (s := S4x256x256x256) S1x64x128x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v4) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7_0) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64x128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x256x256 : Shape := ⟨3, ![4, 256, 256]⟩
abbrev S256x512 : Shape := ⟨2, ![256, 512]⟩
abbrev S256 : Shape := ⟨1, ![256]⟩
abbrev S256x256 : Shape := ⟨2, ![256, 256]⟩
abbrev S4x256x1x256 : Shape := ⟨4, ![4, 256, 1, 256]⟩
abbrev S4x1x256x256 : Shape := ⟨4, ![4, 1, 256, 256]⟩
abbrev S4x256x256x256 : Shape := ⟨4, ![4, 256, 256, 256]⟩
abbrev S1x1x1x256 : Shape := ⟨4, ![1, 1, 1, 256]⟩

abbrev nBuf : Space → Nat
  | .hbm => 15
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S256x512, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S4x256x256, .f32⟩
  | .hbm, ⟨6, _⟩ => ⟨S4x256x256, .f32⟩
  | .hbm, ⟨7, _⟩ => ⟨S4x256x1x256, .f32⟩
  | .hbm, ⟨8, _⟩ => ⟨S4x1x256x256, .f32⟩
  | .hbm, ⟨9, _⟩ => ⟨S4x256x256x256, .f32⟩
  | .hbm, ⟨10, _⟩ => ⟨S4x256x256x256, .f32⟩
  | .hbm, ⟨11, _⟩ => ⟨S4x256x256x256, .f32⟩
  | .hbm, ⟨12, _⟩ => ⟨S1x1x1x256, .f32⟩
  | .hbm, ⟨13, _⟩ => ⟨S4x256x256x256, .f32⟩
  | .hbm, ⟨14, _⟩ => ⟨S4x256x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S256x512_S256x256_0_0 : S256x512.Slices ![0, 0] S256x256
  slices_S256x512_S256x256_0_256 : S256x512.Slices ![0, 256] S256x256
  bcast_S4x256x256_S4x256x1x256_0_1_3 : S4x256x256.BroadcastsInDim S4x256x1x256 (![0, 1, 3] : Fin 3 → Fin S4x256x1x256.rank)
  bcast_S4x256x256_S4x1x256x256_0_2_3 : S4x256x256.BroadcastsInDim S4x1x256x256 (![0, 2, 3] : Fin 3 → Fin S4x1x256x256.rank)
  bcast_S4x256x1x256_S4x256x256x256_0_1_2_3 : S4x256x1x256.BroadcastsInDim S4x256x256x256 (![0, 1, 2, 3] : Fin 4 → Fin S4x256x256x256.rank)
  bcast_S4x1x256x256_S4x256x256x256_0_1_2_3 : S4x1x256x256.BroadcastsInDim S4x256x256x256 (![0, 1, 2, 3] : Fin 4 → Fin S4x256x256x256.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  dot_S4x256x256_S256x256_S4x256x256_2_1_01_0_n_n_wf : DotDims.WF S4x256x256 S256x256 S4x256x256 [2] [1] [0, 1] [0] [] []

variable [Facts₀]

def dot_S4x256x256_S256x256_S4x256x256_2_1_01_0_n_n : DotDims S4x256x256 S256x256 S4x256x256 where
  lhsContracting := [2]
  rhsContracting := [1]
  lhsNonContracting := [0, 1]
  rhsNonContracting := [0]
  lhsBatch := []
  rhsBatch := []
  wf := dot_S4x256x256_S256x256_S4x256x256_2_1_01_0_n_n_wf

class Facts : Prop extends Facts₀ where

variable [Facts]
-- ==== Proof.HostEntry.lean ====
/-
  What the first call finds in its three operand arrays.

  Before the first call the program cuts `W : [256, 512]` into its left and right [256, 256] halves, transposes
  each, and narrows the batches `x` and the two transposed halves to the 16-bit format. On the extended reals the
  narrowing is the identity, so the first call finds

      x                    in the rows' array,
      (k, f) ↦ W[f, k]         in the first matrix,
      (k, f) ↦ W[f, 256 + k]   in the second matrix,

  and the bias array is untouched.
-/
import proofs.«147406_j55379308314761_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostEntry

open Cert.KernelIdeal Cert.KernelIdeal.Gen Idealize.ShloMosaic Idealize.ShloMosaic.TcCoe Idealize.SL.Sem Idealize.ShloMosaic.StableHlo
open ValueIdx

variable (m : (ℓ : Loc nD τ sig) → Buf (Elt Ideal) ℓ) (ρ : Dev nD → PrngReg)

/-- The rows' array at the first call's entry is the narrowed `x`. -/
theorem rows_eq (c : Dev nD) :
    (V1 m ρ c main_v4 : FVec Ideal S4x256x256 .bf16) = truncf (F := Ideal) .bf16 (m ((c : Thread nD τ).loc main_arg0) : FVec Ideal S4x256x256 .f32) bitsLt_bf16_f32 := by
  show StableHlo.after hostOps0 (W0 m ρ c) (Proc.devRef .tc main_v4) = _
  after_results

/-- The first matrix at the first call's entry: the left half of `W`, transposed and narrowed. -/
theorem left_eq (c : Dev nD) :
    (V1 m ρ c main_v5 : FVec Ideal S256x256 .bf16) = truncf (F := Ideal) .bf16 (transpose S256x256 [1, 0]
      (extractStridedSlice S256x256 ![0, 0] (m ((c : Thread nD τ).loc main_arg1) : FVec Ideal S256x512 .f32) slices_S256x512_S256x256_0_0)
      transposes_S256x256_S256x256_1_0) bitsLt_bf16_f32 := by
  show StableHlo.after hostOps0 (W0 m ρ c) (Proc.devRef .tc main_v5) = _
  after_results

/-- The second matrix at the first call's entry: the right half of `W`, transposed and narrowed. -/
theorem right_eq (c : Dev nD) :
    (V1 m ρ c main_v6 : FVec Ideal S256x256 .bf16) = truncf (F := Ideal) .bf16 (transpose S256x256 [1, 0]
      (extractStridedSlice S256x256 ![0, 256] (m ((c : Thread nD τ).loc main_arg1) : FVec Ideal S256x512 .f32) slices_S256x512_S256x256_0_256)
      transposes_S256x256_S256x256_1_0) bitsLt_bf16_f32 := by
  show StableHlo.after hostOps0 (W0 m ρ c) (Proc.devRef .tc main_v6) = _
  after_results

/-- The rows' array read at an index: `x` there. -/
theorem rows_apply (c : Dev nD) (i : S4x256x256.Idx) :
    V1 m ρ c main_v4 i = m ((c : Thread nD τ).loc main_arg0) i := by
  rw [rows_eq]; rfl

/-- The first matrix read at `(k, f)`: `W[f, k]`. -/
theorem left_apply (c : Dev nD) (k f : Fin 256) :
    V1 m ρ c main_v5 (ix2 k f) = m ((c : Thread nD τ).loc main_arg1) (ix2 f ⟨0 + k.val, by have := k.isLt; omega⟩ : S256x512.Idx) := by
  rw [left_eq]
  refine (truncf_apply _ bitsLt_bf16_f32 _).trans ?_
  refine (transpose_ix2_apply _ transposes_S256x256_S256x256_1_0 k f).trans ?_
  refine extractStridedSlice_apply (s := S256x512) ![0, 0] _ slices_S256x512_S256x256_0_0 (ix2 f k) _ (fun a => ?_)
  match a with
  | ⟨0, _⟩ => show f.val = 0 + f.val; omega
  | ⟨1, _⟩ => rfl

/-- The second matrix read at `(k, f)`: `W[f, 256 + k]`. -/
theorem right_apply (c : Dev nD) (k f : Fin 256) :
    V1 m ρ c main_v6 (ix2 k f) = m ((c : Thread nD τ).loc main_arg1) (ix2 f ⟨256 + k.val, by have := k.isLt; omega⟩ : S256x512.Idx) := by
  rw [right_eq]
  refine (truncf_apply _ bitsLt_bf16_f32 _).trans ?_
  refine (transpose_ix2_apply _ transposes_S256x256_S256x256_1_0 k f).trans ?_
  refine extractStridedSlice_apply (s := S256x512) ![0, 256] _ slices_S256x512_S256x256_0_256 (ix2 f k) _ (fun a => ?_)
  match a with
  | ⟨0, _⟩ => show f.val = 0 + f.val; omega
  | ⟨1, _⟩ => rfl

end Cert.KernelIdeal.HostEntry

end
-- ==== Proof.ProjPayload.lean ====
/-
  The first call's two stores, read at an index.

  Its body takes a [1, 256, 256] block `v` of the rows and a [256, 256] matrix `w`, drops the block's unit
  axis, multiplies into a zero accumulator and puts the unit axis back. So entry `(0, s, f)` of what it stores is

      ∑ₖ v[0, s, k] · w[k, f],

  the matrix product as a plain sum over the contracted axis (on the extended reals the accumulator's zero
  is the sum's neutral element).
-/
import proofs.«147406_j55379308314761_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjPayload

open Cert.KernelIdeal Cert.KernelIdeal.Gen Idealize.ShloMosaic Idealize.ShloMosaic.TcCoe Idealize.SL.Sem
open scoped BigOperators

/-! ## The product's operand indices, axis by axis -/

theorem lhs_axis0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_axis1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_axis0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_axis1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- Row `i 0`, column `k`: where the left operand is read. -/
abbrev lrow (i : S256x256.Idx) (k : Fin 256) : S256x256.Idx := fun a => match a with
  | ⟨0, _⟩ => ⟨(i 0).val, (i 0).isLt⟩
  | ⟨1, _⟩ => ⟨k.val, k.isLt⟩
/-- Row `k`, column `i 1`: where the right operand is read. -/
abbrev rcol (i : S256x256.Idx) (k : Fin 256) : S256x256.Idx := fun a => match a with
  | ⟨0, _⟩ => ⟨k.val, k.isLt⟩
  | ⟨1, _⟩ => ⟨(i 1).val, (i 1).isLt⟩

/-- The product into a zero accumulator is the sum over the contracted axis of row times column. -/
theorem product_apply (l r : FVec Ideal S256x256 .bf16) (i : S256x256.Idx) :
    matmul (F := Ideal) dot_S256x256_S256x256_S256x256_1_0_0_1_n_n none l r (constant (F := Ideal) S256x256 .f32 0x00000000#32) i
      = ∑ k : Fin 256, l (lrow i k) * r (rcol i k) := by
  refine (Ideal.matmul_constant_zero_apply dot_S256x256_S256x256_S256x256_1_0_0_1_n_n none l r i).trans ?_
  rw [← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx i ((ValueIdx.contrEquiv1 dot_S256x256_S256x256_S256x256_1_0_0_1_n_n 256 rfl rfl).symm k) = lrow i k := funext fun a => Fin.ext (by
    match a with
    | ⟨0, _⟩ => exact lhs_axis0 _ _
    | ⟨1, _⟩ => exact (lhs_axis1 _ _).trans hk)
  have er : dot_S256x256_S256x256_S256x256_1_0_0_1_n_n.rhsIdx i ((ValueIdx.contrEquiv1 dot_S256x256_S256x256_S256x256_1_0_0_1_n_n 256 rfl rfl).symm k) = rcol i k := funext fun a => Fin.ext (by
    match a with
    | ⟨0, _⟩ => exact (rhs_axis0 _ _).trans hk
    | ⟨1, _⟩ => exact rhs_axis1 _ _)
  rw [el, er]

/-! ## The two stored values -/

/-- The block with its unit axis dropped, the product, and the unit axis put back: entry `(0, s, f)` is
    `∑ₖ v[0, s, k] · w[k, f]`. -/
theorem block_product (v : FVec Ideal S1x256x256 .bf16) (w : FVec Ideal S256x256 .bf16) (s f : Fin 256) :
    shapeCast S1x256x256 (matmul (F := Ideal) dot_S256x256_S256x256_S256x256_1_0_0_1_n_n none
        (shapeCast S256x256 v shapeCasts_S1x256x256_S256x256) (shapeCast S256x256 w shapeCasts_S256x256_S256x256)
        (constant (F := Ideal) S256x256 .f32 0x00000000#32)) shapeCasts_S256x256_S1x256x256 (ValueIdx.ix3 ⟨0, Nat.one_pos⟩ s f)
      = ∑ k : Fin 256, v (ValueIdx.ix3 ⟨0, Nat.one_pos⟩ s k) * w (ValueIdx.ix2 k f) := by
  refine (shapeCast_addUnit_apply ![256, 256] _ shapeCasts_S256x256_S1x256x256 _).trans ?_
  refine (product_apply _ _ _).trans ?_
  refine Finset.sum_congr rfl fun k _ => ?_
  rw [shapeCast_self]
  refine congrArg₂ (· * ·) ((shapeCast_dropUnit_apply ![256, 256] v shapeCasts_S1x256x256_S256x256 _).trans (congrArg v (funext fun a => ?_))) (congrArg w (funext fun a => ?_))
  · match a with
    | ⟨0, _⟩ => rfl
    | ⟨1, _⟩ => rfl
    | ⟨2, _⟩ => rfl
  · match a with
    | ⟨0, _⟩ => rfl
    | ⟨1, _⟩ => rfl

theorem k0_pay2_apply (v : FVec Ideal S1x256x256 .bf16) (w : FVec Ideal S256x256 .bf16) (s f : Fin 256) :
    k0_pay2 (F := Ideal) v w (ValueIdx.ix3 ⟨0, Nat.one_pos⟩ s f)
      = ∑ k : Fin 256, v (ValueIdx.ix3 ⟨0, Nat.one_pos⟩ s k) * w (ValueIdx.ix2 k f) :=
  block_product v w s f

theorem k0_pay3_apply (v : FVec Ideal S1x256x256 .bf16) (w : FVec Ideal S256x256 .bf16) (s f : Fin 256) :
    k0_pay3 (F := Ideal) v w (ValueIdx.ix3 ⟨0, Nat.one_pos⟩ s f)
      = ∑ k : Fin 256, v (ValueIdx.ix3 ⟨0, Nat.one_pos⟩ s k) * w (ValueIdx.ix2 k f) :=
  block_product v w s f

end Cert.KernelIdeal.ProjPayload

end
-- ==== Proof.ProjRegion.lean ====
/-
  What the first call leaves in its two result arrays.

  The call runs over the 4 batches. At batch `n` it stages rows `x[n, ·, ·]` and the two whole [256, 256]
  matrices, and writes back, through each of its two output windows, the block `x[n] · w` (the stored value read
  at an index: the payload module). The 4 blocks tile each [4, 256, 256] result array, so each array ends
  holding, at `(n, s, f)`,

      ∑ₖ x[n, s, k] · w[k, f]

  with `w` the first matrix for the first result and the second matrix for the second.
-/
import proofs.«147406_j55379308314761_1_alg».proof.Proof.Gen.KernelIdeal.Frame
import proofs.«147406_j55379308314761_1_alg».proof.Proof.ProjPayload

set_option maxRecDepth 16384

noncomputable section

namespace Cert.KernelIdeal.ProjRegion

open Cert.KernelIdeal Cert.KernelIdeal.Gen Idealize.ShloMosaic Idealize.ShloMosaic.TcCoe Idealize.SL.Sem
open Idealize.ShloMosaic.Pipeline (Dat Cfg Window)
open ValueIdx
open scoped BigOperators

/-- Every row of every batch of `x` against every column of `w`: `(n, s, f) ↦ ∑ₖ x[n, s, k] · w[k, f]`. -/
def rowsTimes (x : FVec Ideal S4x256x256 .bf16) (w : FVec Ideal S256x256 .bf16) : FVec Ideal S4x256x256 .f32 := fun i =>
  ∑ k : Fin 256, x (ix3 ⟨(i 0).val, (i 0).isLt⟩ ⟨(i 1).val, (i 1).isLt⟩ k) * w (ix2 k ⟨(i 2).val, (i 2).isLt⟩)

theorem rowsTimes_apply (x : FVec Ideal S4x256x256 .bf16) (w : FVec Ideal S256x256 .bf16) (n : Fin 4) (s f : Fin 256) :
    rowsTimes x w (ix3 n s f) = ∑ k : Fin 256, x (ix3 n s k) * w (ix2 k f) := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- Two [1, 256, 256] blocks are equal when they agree at every `(0, s, f)`. -/
theorem block_ext (A B : S1x256x256.Idx → EReal) (h : ∀ s f : Fin 256, A (ix3 ⟨0, Nat.one_pos⟩ s f) = B (ix3 ⟨0, Nat.one_pos⟩ s f)) : A = B := by
  funext j
  have e : j = ix3 ⟨0, Nat.one_pos⟩ ⟨(j 1).val, (j 1).isLt⟩ ⟨(j 2).val, (j 2).isLt⟩ := funext fun a => by
    match a with
    | ⟨0, _⟩ => exact Fin.ext (by have h0 : (j 0).val < 1 := (j 0).isLt; show (j 0).val = 0; omega)
    | ⟨1, _⟩ => rfl
    | ⟨2, _⟩ => rfl
  rw [e]; exact h _ _

/-- The printed index maps, decided over the grid's 4 points: the rows' window and both output windows are at
    block `(t, 0, 0)`, the matrices' windows at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Every batch is some point's. -/
theorem idx_onto : ∀ q : Fin 4, ∃ t : Fin cfg0.N, t.val = q.val :=
  (by decide +kernel : ∀ q : Fin 4, ∃ t : Fin grid0.N, t.val = q.val)

/-- Point `t` as a batch number. -/
def batch (t : Fin cfg0.N) : Fin 4 := ⟨t.val, lt_of_lt_of_eq t.isLt N_0⟩

variable (V : (c : Dev nD) → (b : Ref sig .tc) → Buf (Elt Ideal) ((c : Thread nD τ).loc b))

/-! ## The staged blocks, read at an index -/

/-- The rows staged at point `t`. -/
abbrev xblk (c : Dev nD) (t : Fin cfg0.N) : FVec Ideal S1x256x256 .bf16 := iblk0 V c 0 t
/-- The first matrix as staged at point `t`. -/
abbrev w1blk (c : Dev nD) (t : Fin cfg0.N) : FVec Ideal S256x256 .bf16 := iblk0 V c 1 t
/-- The second matrix as staged at point `t`. -/
abbrev w2blk (c : Dev nD) (t : Fin cfg0.N) : FVec Ideal S256x256 .bf16 := iblk0 V c 2 t

theorem xblk_apply (c : Dev nD) (t : Fin cfg0.N) (s k : Fin 256) :
    xblk V c t (ix3 ⟨0, Nat.one_pos⟩ s k) = V c main_v4 (ix3 (batch t) s k : S4x256x256.Idx) := by
  obtain ⟨e0, e1, e2, e3, e4, e5, e6, e7, e8, e9, e10, e11, e12⟩ := idx_facts t
  show V c main_v4 (((cfg0.win 0).blk t).view.emb (ix3 ⟨0, Nat.one_pos⟩ s k)) = _
  refine congrArg (V c main_v4) (funext fun a => Fin.ext ?_)
  match a with
  | ⟨0, _⟩ => show win0_0.index t (0 : Fin 3) * 1 + 1 * 0 = t.val; omega
  | ⟨1, _⟩ => show win0_0.index t (1 : Fin 3) * 256 + 1 * s.val = s.val; omega
  | ⟨2, _⟩ => show win0_0.index t (2 : Fin 3) * 256 + 1 * k.val = k.val; omega

theorem w1blk_apply (c : Dev nD) (t : Fin cfg0.N) (k f : Fin 256) :
    w1blk V c t (ix2 k f) = V c main_v5 (ix2 k f : S256x256.Idx) := by
  obtain ⟨e0, e1, e2, e3, e4, e5, e6, e7, e8, e9, e10, e11, e12⟩ := idx_facts t
  show V c main_v5 (((cfg0.win 1).blk t).view.emb (ix2 k f)) = _
  refine congrArg (V c main_v5) (funext fun a => Fin.ext ?_)
  match a with
  | ⟨0, _⟩ => show win0_1.index t (0 : Fin 2) * 256 + 1 * k.val = k.val; omega
  | ⟨1, _⟩ => show win0_1.index t (1 : Fin 2) * 256 + 1 * f.val = f.val; omega

theorem w2blk_apply (c : Dev nD) (t : Fin cfg0.N) (k f : Fin 256) :
    w2blk V c t (ix2 k f) = V c main_v6 (ix2 k f : S256x256.Idx) := by
  obtain ⟨e0, e1, e2, e3, e4, e5, e6, e7, e8, e9, e10, e11, e12⟩ := idx_facts t
  show V c main_v6 (((cfg0.win 2).blk t).view.emb (ix2 k f)) = _
  refine congrArg (V c main_v6) (funext fun a => Fin.ext ?_)
  match a with
  | ⟨0, _⟩ => show win0_2.index t (0 : Fin 2) * 256 + 1 * k.val = k.val; omega
  | ⟨1, _⟩ => show win0_2.index t (1 : Fin 2) * 256 + 1 * f.val = f.val; omega

/-! ## Output window 3 -/

/-- An index of the array is in point `t`'s block iff each coordinate is in the block's range on its axis. -/
theorem mem_blk3 (t : Fin cfg0.N) (i : S4x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v7_0).slice (win0_3.rect t)).set ↔ _
  rw [View.set_slice_whole, Rect.mem_set_unit]
  exact Iff.rfl

/-- Where entry `(0, s, f)` of point `t`'s block lies in the array: batch `t`, row `s`, column `f`. -/
theorem out3_emb (t : Fin cfg0.N) (s f : Fin 256) :
    ((cfg0.win 3).blk t).view.emb (ix3 ⟨0, Nat.one_pos⟩ s f) = (ix3 (batch t) s f : S4x256x256.Idx) := by
  obtain ⟨e0, e1, e2, e3, e4, e5, e6, e7, e8, e9, e10, e11, e12⟩ := idx_facts t
  funext a; apply Fin.ext
  match a with
  | ⟨0, _⟩ => show win0_3.index t (0 : Fin 3) * 1 + 1 * 0 = t.val; omega
  | ⟨1, _⟩ => show win0_3.index t (1 : Fin 3) * 256 + 1 * s.val = s.val; omega
  | ⟨2, _⟩ => show win0_3.index t (2 : Fin 3) * 256 + 1 * f.val = f.val; omega

/-- WHAT POINT `t` WRITES BACK through window 3: block `t` of the rows of the batch against the columns of the first matrix. -/
theorem flushed3_eq (c : Dev nD) (t : Fin cfg0.N) :
    (dat0 V c).flushed 3 t = ((cfg0.win 3).blk t).view.read (Elt Ideal) (rowsTimes (V c main_v4) (V c main_v5)) := by
  show (cfg0.win 3).cut (grid0.coords t) ((dat0 V c).after 3 t) = _
  rw [after0_3]
  unfold out0_3
  rw [View.canon_unit_zero hz3]
  simp only [View.ld_unit_zero (S := S1x256x256) hz3, View.ld_unit_zero (S := S256x256) hz2]
  refine block_ext _ _ fun s f => ?_
  refine (ProjPayload.k0_pay2_apply (xblk V c t) (w1blk V c t) s f).trans ?_
  rw [View.read_apply, out3_emb, rowsTimes_apply]
  refine Finset.sum_congr rfl fun k _ => ?_
  rw [xblk_apply, w1blk_apply]

/-- Every index of the array is in some point's block: batch `n` is point `n`'s. -/
theorem cover3 (i : S4x256x256.Idx) : ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 256 := (i 2).isLt
  obtain ⟨t, ht⟩ := idx_onto ⟨(i 0).val, hi0⟩
  obtain ⟨e0, e1, e2, e3, e4, e5, e6, e7, e8, e9, e10, e11, e12⟩ := idx_facts t
  have ht' : t.val = (i 0).val := ht
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- THE ARRAY after the call: every row of every batch against every column of the first matrix. -/
theorem arr3 (c : Dev nD) : (dat0 V c).arrAt 3 cfg0.N = rowsTimes (V c main_v4) (V c main_v5) :=
  (dat0 V c).arrAt_eq_of_cover 3 _ (fun t _ => flushed3_eq V c t) cover3

/-! ## Output window 4 -/

/-- An index of the array is in point `t`'s block iff each coordinate is in the block's range on its axis. -/
theorem mem_blk4 (t : Fin cfg0.N) (i : S4x256x256.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v7_1).slice (win0_4.rect t)).set ↔ _
  rw [View.set_slice_whole, Rect.mem_set_unit]
  exact Iff.rfl

/-- Where entry `(0, s, f)` of point `t`'s block lies in the array: batch `t`, row `s`, column `f`. -/
theorem out4_emb (t : Fin cfg0.N) (s f : Fin 256) :
    ((cfg0.win 4).blk t).view.emb (ix3 ⟨0, Nat.one_pos⟩ s f) = (ix3 (batch t) s f : S4x256x256.Idx) := by
  obtain ⟨e0, e1, e2, e3, e4, e5, e6, e7, e8, e9, e10, e11, e12⟩ := idx_facts t
  funext a; apply Fin.ext
  match a with
  | ⟨0, _⟩ => show win0_4.index t (0 : Fin 3) * 1 + 1 * 0 = t.val; omega
  | ⟨1, _⟩ => show win0_4.index t (1 : Fin 3) * 256 + 1 * s.val = s.val; omega
  | ⟨2, _⟩ => show win0_4.index t (2 : Fin 3) * 256 + 1 * f.val = f.val; omega

/-- WHAT POINT `t` WRITES BACK through window 4: block `t` of the rows of the batch against the columns of the second matrix. -/
theorem flushed4_eq (c : Dev nD) (t : Fin cfg0.N) :
    (dat0 V c).flushed 4 t = ((cfg0.win 4).blk t).view.read (Elt Ideal) (rowsTimes (V c main_v4) (V c main_v6)) := by
  show (cfg0.win 4).cut (grid0.coords t) ((dat0 V c).after 4 t) = _
  rw [after0_4]
  unfold out0_4
  rw [View.canon_unit_zero hz3]
  simp only [View.ld_unit_zero (S := S1x256x256) hz3, View.ld_unit_zero (S := S256x256) hz2]
  refine block_ext _ _ fun s f => ?_
  refine (ProjPayload.k0_pay3_apply (xblk V c t) (w2blk V c t) s f).trans ?_
  rw [View.read_apply, out4_emb, rowsTimes_apply]
  refine Finset.sum_congr rfl fun k _ => ?_
  rw [xblk_apply, w2blk_apply]

/-- Every index of the array is in some point's block: batch `n` is point `n`'s. -/
theorem cover4 (i : S4x256x256.Idx) : ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 256 := (i 2).isLt
  obtain ⟨t, ht⟩ := idx_onto ⟨(i 0).val, hi0⟩
  obtain ⟨e0, e1, e2, e3, e4, e5, e6, e7, e8, e9, e10, e11, e12⟩ := idx_facts t
  have ht' : t.val = (i 0).val := ht
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- THE ARRAY after the call: every row of every batch against every column of the second matrix. -/
theorem arr4 (c : Dev nD) : (dat0 V c).arrAt 4 cfg0.N = rowsTimes (V c main_v4) (V c main_v6) :=
  (dat0 V c).arrAt_eq_of_cover 4 _ (fun t _ => flushed4_eq V c t) cover4

end Cert.KernelIdeal.ProjRegion

end
-- ==== Proof.ExpandPayload.lean ====
/-
  The second call's store, read at an index.

  Its body takes a [1, 64, 256] block `u` (rows `i`), a [1, 128, 256] block `v` (rows `j`) and the bias
  `b : [256]`, spreads `u` along a new middle axis and `v` along a new leading axis, adds them, adds the bias spread
  over both row axes, and stores the [1, 64, 128, 256] result. So entry `(0, p, q, e)` of what it stores is

      (u[0, p, e] + v[0, q, e]) + b[e].
-/
import proofs.«147406_j55379308314761_1_alg».proof.Proof.Gen.KernelIdeal.Skeleton
import Idealize.ShloMosaic.Lib.Pipeline.Value
import Idealize.ShloMosaic.Lib.ValueIdx

noncomputable section

namespace Cert.KernelIdeal.ExpandPayload

open Cert.KernelIdeal Cert.KernelIdeal.Gen Idealize.ShloMosaic Idealize.ShloMosaic.TcCoe Idealize.SL.Sem
open ValueIdx

/-- Rows `i` spread along the middle axis: `(p, q, e)` reads `u[0, p, e]`. -/
theorem spread_rows_i (u : FVec Ideal S1x64x256 .f32) (p : Fin 64) (q : Fin 128) (e : Fin 256) :
    broadcastTo S64x128x256
        (shapeCast S64x1x256 (shapeCast S64x256 u shapeCasts_S1x64x256_S64x256) shapeCasts_S64x256_S64x1x256)
        broadcasts_S64x1x256_S64x128x256 (ix3 p q e)
      = u (ix3 ⟨0, Nat.one_pos⟩ p e) := by
  refine (broadcastTo_apply _ broadcasts_S64x1x256_S64x128x256 (ix3 p q e) (ix3 p ⟨0, Nat.one_pos⟩ e) (fun a => ?_)).trans ?_
  · match a with
    | ⟨0, _⟩ => show p.val = if (64 : Nat) = 1 then 0 else p.val; rw [if_neg (by decide)]
    | ⟨1, _⟩ => show 0 = if (1 : Nat) = 1 then 0 else q.val; rw [if_pos rfl]
    | ⟨2, _⟩ => show e.val = if (256 : Nat) = 1 then 0 else e.val; rw [if_neg (by decide)]
  refine (shapeCast_apply _ shapeCasts_S64x256_S64x1x256 (ix3 p ⟨0, Nat.one_pos⟩ e) (ix2 p e) ?_).trans ?_
  · rw [Shape.rowMajor_val_two, Shape.rowMajor_val_three]
    show p.val * 256 + e.val = (p.val * 1 + 0) * 256 + e.val
    omega
  refine (shapeCast_dropUnit_apply ![64, 256] u shapeCasts_S1x64x256_S64x256 (ix2 p e)).trans (congrArg u (funext fun a => ?_))
  match a with
  | ⟨0, _⟩ => rfl
  | ⟨1, _⟩ => rfl
  | ⟨2, _⟩ => rfl

/-- Rows `j` spread along the leading axis: `(p, q, e)` reads `v[0, q, e]`. -/
theorem spread_rows_j (v : FVec Ideal S1x128x256 .f32) (p : Fin 64) (q : Fin 128) (e : Fin 256) :
    broadcastTo S64x128x256
        (shapeCast S1x128x256 (shapeCast S128x256 v shapeCasts_S1x128x256_S128x256) shapeCasts_S128x256_S1x128x256)
        broadcasts_S1x128x256_S64x128x256 (ix3 p q e)
      = v (ix3 ⟨0, Nat.one_pos⟩ q e) := by
  rw [shapeCast_shapeCast]
  refine broadcastTo_apply v broadcasts_S1x128x256_S64x128x256 (ix3 p q e) (ix3 ⟨0, Nat.one_pos⟩ q e) (fun a => ?_)
  match a with
  | ⟨0, _⟩ => show 0 = if (1 : Nat) = 1 then 0 else p.val; rw [if_pos rfl]
  | ⟨1, _⟩ => show q.val = if (128 : Nat) = 1 then 0 else q.val; rw [if_neg (by decide)]
  | ⟨2, _⟩ => show e.val = if (256 : Nat) = 1 then 0 else e.val; rw [if_neg (by decide)]

/-- The bias spread over both row axes: `(p, q, e)` reads `b[e]`. -/
theorem spread_bias (b : FVec Ideal S256 .f32) (p : Fin 64) (q : Fin 128) (e : Fin 256) :
    broadcastTo S64x128x256 (shapeCast S1x1x256 b shapeCasts_S256_S1x1x256) broadcasts_S1x1x256_S64x128x256 (ix3 p q e)
      = b (ix1 e) := by
  refine (broadcastTo_apply _ broadcasts_S1x1x256_S64x128x256 (ix3 p q e) (ix3 ⟨0, Nat.one_pos⟩ ⟨0, Nat.one_pos⟩ e) (fun a => ?_)).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show e.val = if (256 : Nat) = 1 then 0 else e.val; rw [if_neg (by decide)]
  refine shapeCast_apply b shapeCasts_S256_S1x1x256 (ix3 ⟨0, Nat.one_pos⟩ ⟨0, Nat.one_pos⟩ e) (ix1 e) ?_
  rw [Shape.rowMajor_val_one, Shape.rowMajor_val_three]
  show e.val = (0 * 1 + 0) * 256 + e.val
  omega

/-- The stored value at `(0, p, q, e)`: `(u[0, p, e] + v[0, q, e]) + b[e]`. -/
theorem k1_pay1_apply (u : FVec Ideal S1x64x256 .f32) (v : FVec Ideal S1x128x256 .f32) (b : FVec Ideal S256 .f32)
    (p : Fin 64) (q : Fin 128) (e : Fin 256) :
    k1_pay1 (F := Ideal) u v b (ix4 ⟨0, Nat.one_pos⟩ p q e)
      = (u (ix3 ⟨0, Nat.one_pos⟩ p e) + v (ix3 ⟨0, Nat.one_pos⟩ q e)) + b (ix1 e) := by
  unfold k1_pay1
  refine (shapeCast_addUnit_apply ![64, 128, 256] _ shapeCasts_S64x128x256_S1x64x128x256 _).trans ?_
  have hj : (fun a : Fin 3 => (ix4 (⟨0, Nat.one_pos⟩ : Fin 1) p q e) a.succ) = ix3 p q e := funext fun a => by
    match a with
    | ⟨0, _⟩ => rfl
    | ⟨1, _⟩ => rfl
    | ⟨2, _⟩ => rfl
  rw [hj, addf_apply, addf_apply, spread_rows_i, spread_rows_j, spread_bias]

end Cert.KernelIdeal.ExpandPayload

end
-- ==== Proof.ExpandRegion.lean ====
/-
  What the second call leaves in the result array.

  The call runs over a 4 × 4 × 2 grid: batch `n`, a block of 64 rows `i`, a block of 128 rows `j`. At a point it
  stages the 64 rows `p[n, i·, ·]` of its first operand, the 128 rows `q[n, j·, ·]` of its second and the bias, and
  writes back the [1, 64, 128, 256] block whose entry is (row `i` of `p`) + (row `j` of `q`) + bias (the stored
  value read at an index: the payload module). The 32 blocks tile the [4, 256, 256, 256] result, so it ends holding,
  at `(n, i, j, e)`,

      (p[n, i, e] + q[n, j, e]) + b[e].
-/
import proofs.«147406_j55379308314761_1_alg».proof.Proof.Gen.KernelIdeal.Frame
import proofs.«147406_j55379308314761_1_alg».proof.Proof.ExpandPayload

set_option maxRecDepth 16384

noncomputable section

namespace Cert.KernelIdeal.ExpandRegion

open Cert.KernelIdeal Cert.KernelIdeal.Gen Idealize.ShloMosaic Idealize.ShloMosaic.TcCoe Idealize.SL.Sem
open Idealize.ShloMosaic.Pipeline (Dat Cfg Window)
open ValueIdx

/-- `(n, i, j, e) ↦ (p[n, i, e] + q[n, j, e]) + b[e]`. -/
def pairSum (p q : FVec Ideal S4x256x256 .f32) (b : FVec Ideal S256 .f32) : FVec Ideal S4x256x256x256 .f32 := fun i =>
  (p (ix3 ⟨(i 0).val, (i 0).isLt⟩ ⟨(i 1).val, (i 1).isLt⟩ ⟨(i 3).val, (i 3).isLt⟩)
    + q (ix3 ⟨(i 0).val, (i 0).isLt⟩ ⟨(i 2).val, (i 2).isLt⟩ ⟨(i 3).val, (i 3).isLt⟩))
    + b (ix1 ⟨(i 3).val, (i 3).isLt⟩)

theorem pairSum_apply (p q : FVec Ideal S4x256x256 .f32) (b : FVec Ideal S256 .f32) (n : Fin 4) (i j e : Fin 256) :
    pairSum p q b (ix4 n i j e) = (p (ix3 n i e) + q (ix3 n j e)) + b (ix1 e) := rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- Two [1, 64, 128, 256] blocks are equal when they agree at every `(0, p, q, e)`. -/
theorem block_ext (A B : S1x64x128x256.Idx → EReal)
    (h : ∀ (p : Fin 64) (q : Fin 128) (e : Fin 256), A (ix4 ⟨0, Nat.one_pos⟩ p q e) = B (ix4 ⟨0, Nat.one_pos⟩ p q e)) : A = B := by
  funext j
  have e : j = ix4 ⟨0, Nat.one_pos⟩ ⟨(j 1).val, (j 1).isLt⟩ ⟨(j 2).val, (j 2).isLt⟩ ⟨(j 3).val, (j 3).isLt⟩ := funext fun a => by
    match a with
    | ⟨0, _⟩ => exact Fin.ext (by have h0 : (j 0).val < 1 := (j 0).isLt; show (j 0).val = 0; omega)
    | ⟨1, _⟩ => rfl
    | ⟨2, _⟩ => rfl
    | ⟨3, _⟩ => rfl
  rw [e]; exact h _ _ _

/-- The printed index maps, decided over the grid's 32 points: the first operand's window moves with the output's
    batch and `i`-block, the second operand's with its batch and `j`-block, the bias's window stays. -/
theorem idx_facts : ∀ t : Fin cfg1.N,
    win1_0.index t (0 : Fin 3) = win1_3.index t (0 : Fin 4) ∧ win1_0.index t (1 : Fin 3) = win1_3.index t (1 : Fin 4) ∧ win1_0.index t (2 : Fin 3) = 0
    ∧ win1_1.index t (0 : Fin 3) = win1_3.index t (0 : Fin 4) ∧ win1_1.index t (1 : Fin 3) = win1_3.index t (2 : Fin 4) ∧ win1_1.index t (2 : Fin 3) = 0
    ∧ win1_2.index t (0 : Fin 1) = 0
    ∧ win1_3.index t (3 : Fin 4) = 0
    ∧ win1_3.index t (0 : Fin 4) < 4 ∧ win1_3.index t (1 : Fin 4) < 4 ∧ win1_3.index t (2 : Fin 4) < 2 :=
  (by decide +kernel : ∀ t : Fin grid1.N, _)

/-- Every (batch, `i`-block, `j`-block) is some point's. -/
theorem idx_onto : ∀ (q0 : Fin 4) (q1 : Fin 4) (q2 : Fin 2), ∃ t : Fin cfg1.N,
    win1_3.index t (0 : Fin 4) = q0.val ∧ win1_3.index t (1 : Fin 4) = q1.val ∧ win1_3.index t (2 : Fin 4) = q2.val :=
  (by decide +kernel : ∀ (q0 : Fin 4) (q1 : Fin 4) (q2 : Fin 2), ∃ t : Fin grid1.N,
    win1_3.index t (0 : Fin 4) = q0.val ∧ win1_3.index t (1 : Fin 4) = q1.val ∧ win1_3.index t (2 : Fin 4) = q2.val)

/-- Point `t`'s batch. -/
def bn (t : Fin cfg1.N) : Fin 4 := ⟨win1_3.index t (0 : Fin 4), (idx_facts t).2.2.2.2.2.2.2.2.1⟩
/-- Row `p` of point `t`'s `i`-block, as a row of the array. -/
def rowI (t : Fin cfg1.N) (p : Fin 64) : Fin 256 :=
  ⟨win1_3.index t (1 : Fin 4) * 64 + p.val, by have := (idx_facts t).2.2.2.2.2.2.2.2.2.1; have := p.isLt; omega⟩
/-- Row `q` of point `t`'s `j`-block, as a row of the array. -/
def rowJ (t : Fin cfg1.N) (q : Fin 128) : Fin 256 :=
  ⟨win1_3.index t (2 : Fin 4) * 128 + q.val, by have := (idx_facts t).2.2.2.2.2.2.2.2.2.2; have := q.isLt; omega⟩

variable (V : (c : Dev nD) → (b : Ref sig .tc) → Buf (Elt Ideal) ((c : Thread nD τ).loc b))

/-! ## The staged blocks, read at an index -/

/-- The 64 rows of the first operand staged at point `t`. -/
abbrev ublk (c : Dev nD) (t : Fin cfg1.N) : FVec Ideal S1x64x256 .f32 := iblk1 V c 0 t
/-- The 128 rows of the second operand staged at point `t`. -/
abbrev vblk (c : Dev nD) (t : Fin cfg1.N) : FVec Ideal S1x128x256 .f32 := iblk1 V c 1 t
/-- The bias as staged at point `t`. -/
abbrev bblk (c : Dev nD) (t : Fin cfg1.N) : FVec Ideal S256 .f32 := iblk1 V c 2 t

theorem ublk_apply (c : Dev nD) (t : Fin cfg1.N) (p : Fin 64) (e : Fin 256) :
    ublk V c t (ix3 ⟨0, Nat.one_pos⟩ p e) = V c main_v7_0 (ix3 (bn t) (rowI t p) e : S4x256x256.Idx) := by
  obtain ⟨e0, e1, e2, e3, e4, e5, e6, e7, e8, e9, e10⟩ := idx_facts t
  show V c main_v7_0 (((cfg1.win 0).blk t).view.emb (ix3 ⟨0, Nat.one_pos⟩ p e)) = _
  refine congrArg (V c main_v7_0) (funext fun a => Fin.ext ?_)
  match a with
  | ⟨0, _⟩ => show win1_0.index t (0 : Fin 3) * 1 + 1 * 0 = win1_3.index t (0 : Fin 4); omega
  | ⟨1, _⟩ => show win1_0.index t (1 : Fin 3) * 64 + 1 * p.val = win1_3.index t (1 : Fin 4) * 64 + p.val; omega
  | ⟨2, _⟩ => show win1_0.index t (2 : Fin 3) * 256 + 1 * e.val = e.val; omega

theorem vblk_apply (c : Dev nD) (t : Fin cfg1.N) (q : Fin 128) (e : Fin 256) :
    vblk V c t (ix3 ⟨0, Nat.one_pos⟩ q e) = V c main_v7_1 (ix3 (bn t) (rowJ t q) e : S4x256x256.Idx) := by
  obtain ⟨e0, e1, e2, e3, e4, e5, e6, e7, e8, e9, e10⟩ := idx_facts t
  show V c main_v7_1 (((cfg1.win 1).blk t).view.emb (ix3 ⟨0, Nat.one_pos⟩ q e)) = _
  refine congrArg (V c main_v7_1) (funext fun a => Fin.ext ?_)
  match a with
  | ⟨0, _⟩ => show win1_1.index t (0 : Fin 3) * 1 + 1 * 0 = win1_3.index t (0 : Fin 4); omega
  | ⟨1, _⟩ => show win1_1.index t (1 : Fin 3) * 128 + 1 * q.val = win1_3.index t (2 : Fin 4) * 128 + q.val; omega
  | ⟨2, _⟩ => show win1_1.index t (2 : Fin 3) * 256 + 1 * e.val = e.val; omega

theorem bblk_apply (c : Dev nD) (t : Fin cfg1.N) (e : Fin 256) :
    bblk V c t (ix1 e) = V c main_arg2 (ix1 e : S256.Idx) := by
  obtain ⟨e0, e1, e2, e3, e4, e5, e6, e7, e8, e9, e10⟩ := idx_facts t
  show V c main_arg2 (((cfg1.win 2).blk t).view.emb (ix1 e)) = _
  refine congrArg (V c main_arg2) (funext fun a => Fin.ext ?_)
  match a with
  | ⟨0, _⟩ => show win1_2.index t (0 : Fin 1) * 256 + 1 * e.val = e.val; omega

/-! ## The output window -/

/-- An index of the array is in point `t`'s block iff each coordinate is in the block's range on its axis. -/
theorem mem_blk (t : Fin cfg1.N) (i : S4x256x256x256.Idx) :
    i ∈ ((cfg1.win 3).blk t).view.set ↔ ∀ a : Fin 4, win1_3.index t a * S1x64x128x256.size a ≤ (i a).val ∧ (i a).val < win1_3.index t a * S1x64x128x256.size a + S1x64x128x256.size a := by
  show i ∈ ((View.whole main_v8).slice (win1_3.rect t)).set ↔ _
  rw [View.set_slice_whole, Rect.mem_set_unit]
  exact Iff.rfl

/-- Where entry `(0, p, q, e)` of point `t`'s block lies in the array. -/
theorem out_emb (t : Fin cfg1.N) (p : Fin 64) (q : Fin 128) (e : Fin 256) :
    ((cfg1.win 3).blk t).view.emb (ix4 ⟨0, Nat.one_pos⟩ p q e) = (ix4 (bn t) (rowI t p) (rowJ t q) e : S4x256x256x256.Idx) := by
  obtain ⟨e0, e1, e2, e3, e4, e5, e6, e7, e8, e9, e10⟩ := idx_facts t
  funext a; apply Fin.ext
  match a with
  | ⟨0, _⟩ => show win1_3.index t (0 : Fin 4) * 1 + 1 * 0 = win1_3.index t (0 : Fin 4); omega
  | ⟨1, _⟩ => show win1_3.index t (1 : Fin 4) * 64 + 1 * p.val = win1_3.index t (1 : Fin 4) * 64 + p.val; omega
  | ⟨2, _⟩ => show win1_3.index t (2 : Fin 4) * 128 + 1 * q.val = win1_3.index t (2 : Fin 4) * 128 + q.val; omega
  | ⟨3, _⟩ => show win1_3.index t (3 : Fin 4) * 256 + 1 * e.val = e.val; omega

/-- WHAT POINT `t` WRITES BACK: block `t` of the pairwise sum of the two operands' rows and the bias. -/
theorem flushed_eq (c : Dev nD) (t : Fin cfg1.N) :
    (dat1 V c).flushed 3 t = ((cfg1.win 3).blk t).view.read (Elt Ideal) (pairSum (V c main_v7_0) (V c main_v7_1) (V c main_arg2)) := by
  show (cfg1.win 3).cut (grid1.coords t) ((dat1 V c).after 3 t) = _
  rw [after1_3]
  unfold out1_3
  rw [View.canon_unit_zero hz4]
  simp only [View.ld_unit_zero (S := S1x64x256) hz3, View.ld_unit_zero (S := S1x128x256) hz3, View.ld_unit_zero (S := S256) hz1]
  refine block_ext _ _ fun p q e => ?_
  refine (ExpandPayload.k1_pay1_apply (ublk V c t) (vblk V c t) (bblk V c t) p q e).trans ?_
  rw [View.read_apply, out_emb, pairSum_apply, ublk_apply, vblk_apply, bblk_apply]
  rfl

/-- Every index of the array is in some point's block. -/
theorem cover (i : S4x256x256x256.Idx) : ∃ t : Fin cfg1.N, (cfg1.win 3).flush t = true ∧ i ∈ ((cfg1.win 3).blk t).view.set := by
  have hi0 : (i 0).val < 4 := (i 0).isLt
  have hi1 : (i 1).val < 256 := (i 1).isLt
  have hi2 : (i 2).val < 256 := (i 2).isLt
  have hi3 : (i 3).val < 256 := (i 3).isLt
  obtain ⟨t, q0, q1, q2⟩ := idx_onto ⟨(i 0).val, hi0⟩ ⟨(i 1).val / 64, by omega⟩ ⟨(i 2).val / 128, by omega⟩
  obtain ⟨e0, e1, e2, e3, e4, e5, e6, e7, e8, e9, e10⟩ := idx_facts t
  have q0' : win1_3.index t (0 : Fin 4) = (i 0).val := q0
  have q1' : win1_3.index t (1 : Fin 4) = (i 1).val / 64 := q1
  have q2' : win1_3.index t (2 : Fin 4) = (i 2).val / 128 := q2
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 64 ≤ (i 1).val ∧ (i 1).val < win1_3.index t (1 : Fin 4) * 64 + 64; omega
  | ⟨2, _⟩ => show win1_3.index t (2 : Fin 4) * 128 ≤ (i 2).val ∧ (i 2).val < win1_3.index t (2 : Fin 4) * 128 + 128; omega
  | ⟨3, _⟩ => show win1_3.index t (3 : Fin 4) * 256 ≤ (i 3).val ∧ (i 3).val < win1_3.index t (3 : Fin 4) * 256 + 256; omega

/-- THE ARRAY after the call: the pairwise sum of the two operands' rows and the bias. -/
theorem arr (c : Dev nD) : (dat1 V c).arrAt 3 cfg1.N = pairSum (V c main_v7_0) (V c main_v7_1) (V c main_arg2) :=
  (dat1 V c).arrAt_eq_of_cover 3 _ (fun t _ => flushed_eq V c t) cover

end Cert.KernelIdeal.ExpandRegion

end
-- ==== Proof.PairSpec.lean ====
/-
  The function both programs compute, on the extended reals.

  For `x : [4, 256, 256]`, `W : [256, 512]` and `b : [256]` the result at `(n, i, j, e)` is

      (∑ₖ x[n, i, k] · W[e, k])  +  (∑ₖ x[n, j, k] · W[e, 256 + k])  +  b[e]:

  row `i` of batch `n` against the left half of row `e` of `W`, row `j` against the right half, and the bias.
  It is the linear layer `[xᵢ ; xⱼ] · Wᵀ + b` on the concatenated pair, split over the two halves of `W`.
-/
import Idealize.ShloMosaic.PureOps.Ideal
import Idealize.ShloMosaic.Lib.ValueIdx

noncomputable section

open Idealize.ShloMosaic
open scoped BigOperators

namespace Cert.PairSpec

abbrev Sx : Shape := ⟨3, ![4, 256, 256]⟩
abbrev Sw : Shape := ⟨2, ![256, 512]⟩
abbrev Sb : Shape := ⟨1, ![256]⟩
abbrev So : Shape := ⟨4, ![4, 256, 256, 256]⟩

/-- Column `off + k` of `W`, for a half of `W` starting at column `off`. -/
abbrev col (off : Nat) (hoff : off + 256 ≤ 512) (k : Fin 256) : Fin 512 := ⟨off + k.val, by have := k.isLt; omega⟩

/-- Row `(n, s)` of `x` against the half of row `e` of `W` that starts at column `off`: `∑ₖ x[n, s, k] · W[e, off + k]`. -/
def half (off : Nat) (hoff : off + 256 ≤ 512) (x : Sx.Idx → EReal) (W : Sw.Idx → EReal) (n : Fin 4) (s e : Fin 256) : EReal :=
  ∑ k : Fin 256, x (ValueIdx.ix3 n s k) * W (ValueIdx.ix2 e (col off hoff k))

/-- The pairwise layer: at `(n, i, j, e)`, row `i` on the left half of `W`'s row `e`, plus row `j` on the right half, plus `b[e]`. -/
def pairwise (x : Sx.Idx → EReal) (W : Sw.Idx → EReal) (b : Sb.Idx → EReal) : So.Idx → EReal := fun i =>
  (half 0 (by decide) x W ⟨(i 0).val, (i 0).isLt⟩ ⟨(i 1).val, (i 1).isLt⟩ ⟨(i 3).val, (i 3).isLt⟩
    + half 256 (by decide) x W ⟨(i 0).val, (i 0).isLt⟩ ⟨(i 2).val, (i 2).isLt⟩ ⟨(i 3).val, (i 3).isLt⟩)
    + b (ValueIdx.ix1 ⟨(i 3).val, (i 3).isLt⟩)

end Cert.PairSpec

end
-- ==== Proof.KernelValue.lean ====
/-
  The two-call program computes the pairwise layer.

  Reading the run backwards from the result buffer:
    * the result buffer ends at what the second call's write-backs leave: at `(n, i, j, e)`, `(p[n, i, e] + q[n, j, e]) + b[e]`
      of the second call's operand arrays `p`, `q` and the bias `b` as that call finds them;
    * `p` and `q` are what the first call's write-backs leave: `p[n, s, f] = ∑ₖ x'[n, s, k] · w₁[k, f]`, `q` the same with
      `w₂`, of the first call's operand arrays as it finds them; the bias array is written by nobody;
    * the first call finds `x' = x`, `w₁[k, f] = W[f, k]` and `w₂[k, f] = W[f, 256 + k]` (the host's slices, transposes and
      narrowings, the last the identity on extended reals).
  Substituting, the result at `(n, i, j, e)` is `(∑ₖ x[n, i, k] · W[e, k]) + (∑ₖ x[n, j, k] · W[e, 256 + k]) + b[e]`:
  the specification. No law of arithmetic is used; the two sides are the same sums of the same products.
-/
import proofs.«147406_j55379308314761_1_alg».proof.Proof.KernelResultRun
import proofs.«147406_j55379308314761_1_alg».proof.Proof.HostEntry
import proofs.«147406_j55379308314761_1_alg».proof.Proof.ProjRegion
import proofs.«147406_j55379308314761_1_alg».proof.Proof.ExpandRegion
import proofs.«147406_j55379308314761_1_alg».proof.Proof.PairSpec

noncomputable section

namespace Cert.KernelIdeal.PairValue

open Cert.KernelIdeal Cert.KernelIdeal.Gen Idealize.ShloMosaic Idealize.ShloMosaic.TcCoe Idealize.SL.Sem Idealize.ShloMosaic.StableHlo
open ValueIdx
open scoped BigOperators

variable (m : (ℓ : Loc nD τ sig) → Buf (Elt Ideal) ℓ) (ρ : Dev nD → PrngReg)

/-- The second call finds its first operand at what the first call left in its first result array. -/
theorem left_operand (c : Dev nD) :
    V2 m ρ c main_v7_0 = ProjRegion.rowsTimes (V1 m ρ c main_v4) (V1 m ρ c main_v5) :=
  (W2_arr m ρ c 3).trans (ProjRegion.arr3 (V1 m ρ) c)

/-- The second call finds its second operand at what the first call left in its second result array. -/
theorem right_operand (c : Dev nD) :
    V2 m ρ c main_v7_1 = ProjRegion.rowsTimes (V1 m ρ c main_v4) (V1 m ρ c main_v6) :=
  (W2_arr m ρ c 4).trans (ProjRegion.arr4 (V1 m ρ) c)

/-- The second call finds the bias as launched: neither the host operations nor the first call write it. -/
theorem bias_operand (c : Dev nD) : V2 m ρ c main_arg2 = m ((c : Thread nD τ).loc main_arg2) := by
  refine (W2_of_ne m ρ c main_arg2 (by decide)).trans ?_
  show StableHlo.after hostOps0 (W0 m ρ c) (Proc.devRef .tc main_arg2) = _
  after_results
  all_goals rfl

/-- The specification at an index given by its coordinates. -/
theorem spec_apply (x : Cert.PairSpec.Sx.Idx → EReal) (W : Cert.PairSpec.Sw.Idx → EReal) (b : Cert.PairSpec.Sb.Idx → EReal)
    (n : Fin 4) (i j e : Fin 256) :
    Cert.PairSpec.pairwise x W b (ix4 n i j e)
      = (Cert.PairSpec.half 0 (by decide) x W n i e + Cert.PairSpec.half 256 (by decide) x W n j e) + b (ix1 e) := rfl

/-- The pairwise sum of the two products, at an index, is the specification there. -/
theorem pointwise (c : Dev nD) (n : Fin 4) (i j e : Fin 256) :
    ExpandRegion.pairSum (ProjRegion.rowsTimes (V1 m ρ c main_v4) (V1 m ρ c main_v5))
        (ProjRegion.rowsTimes (V1 m ρ c main_v4) (V1 m ρ c main_v6)) (m ((c : Thread nD τ).loc main_arg2)) (ix4 n i j e)
      = Cert.PairSpec.pairwise (m ((c : Thread nD τ).loc main_arg0)) (m ((c : Thread nD τ).loc main_arg1))
          (m ((c : Thread nD τ).loc main_arg2)) (ix4 n i j e) := by
  rw [ExpandRegion.pairSum_apply, ProjRegion.rowsTimes_apply, ProjRegion.rowsTimes_apply, spec_apply]
  unfold Cert.PairSpec.half
  refine congrArg₂ (· + ·) (congrArg₂ (· + ·) (Finset.sum_congr rfl fun k _ => ?_) (Finset.sum_congr rfl fun k _ => ?_)) rfl
  · exact congrArg₂ (· * ·) (HostEntry.rows_apply m ρ c (ix3 n i k)) (HostEntry.left_apply m ρ c k e)
  · exact congrArg₂ (· * ·) (HostEntry.rows_apply m ρ c (ix3 n j k)) (HostEntry.right_apply m ρ c k e)

/-- The result buffer's last contents are the specification of the launch arguments. -/
theorem result_eq (c : Dev nD) :
    W3 m ρ c (Proc.devRef .tc main_v8)
      = Cert.PairSpec.pairwise (m ((c : Thread nD τ).loc main_arg0)) (m ((c : Thread nD τ).loc main_arg1))
          (m ((c : Thread nD τ).loc main_arg2)) := by
  refine (W3_arr m ρ c 3).trans ?_
  refine (ExpandRegion.arr (V2 m ρ) c).trans ?_
  rw [left_operand, right_operand, bias_operand]
  funext i
  rw [eq_ix4 i]
  exact pointwise m ρ c ⟨(i 0).val, (i 0).isLt⟩ ⟨(i 1).val, (i 1).isLt⟩ ⟨(i 2).val, (i 2).isLt⟩ ⟨(i 3).val, (i 3).isLt⟩

/-- Every weakly fair execution of the two-call program terminates without a fault, with the result buffer at the
    specification of the launch arguments and the arguments unchanged. -/
theorem run : θ_run defs (onTc (τ := τ) (main (F := Ideal))) ⟨m, fun _ => 0, ρ⟩ (fun r => ∀ c : Dev nD,
      r.2.mem ((c.tc : Thread nD τ).loc main_v8)
        = Cert.PairSpec.pairwise (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (ResultRun.run_main m ρ)

end Cert.KernelIdeal.PairValue

end
-- ==== Proof.ReferenceValue.lean ====
/-
  The reference computes the pairwise layer.

  The reference cuts `W` into its two halves, contracts `x` against each half along the feature axis
  (`pi[n, s, f] = ∑ₖ x[n, s, k] · W[f, k]`, `pj[n, s, f] = ∑ₖ x[n, s, k] · W[f, 256 + k]`), spreads `pi` along a new third
  axis and `pj` along a new second axis, adds them, and adds the bias spread over the three leading axes. Read at
  `(n, i, j, e)` that is `(pi[n, i, e] + pj[n, j, e]) + b[e]`: the specification, term for term.
-/
import proofs.«147406_j55379308314761_1_alg».proof.Proof.Gen.ReferenceIdeal.Run
import proofs.«147406_j55379308314761_1_alg».proof.Proof.Gen.ReferenceIdeal.Read
import proofs.«147406_j55379308314761_1_alg».proof.Proof.PairSpec

noncomputable section

namespace Cert.ReferenceIdeal.RefValue

open Cert.ReferenceIdeal Cert.ReferenceIdeal.Gen Cert.ReferenceIdeal.Read Idealize.ShloMosaic Idealize.ShloMosaic.TcCoe Idealize.SL.Sem
open ValueIdx
open scoped BigOperators

/-! ## The composed index maps, by coordinates -/

/-- Where the left contraction reads `x`: batch and row `i` of the result index, feature `k`. -/
theorem x_at_i (i : S4x256x256x256.Idx) (k : Fin 256) :
    lidx_main_v2 (idx_main_v4 (idx_main_v6 i)) k = ix3 ⟨(i 0).val, (i 0).isLt⟩ ⟨(i 1).val, (i 1).isLt⟩ k :=
  funext fun a => Fin.ext (by match a with | ⟨0, _⟩ => rfl | ⟨1, _⟩ => rfl | ⟨2, _⟩ => rfl)

/-- Where the left contraction reads `W`: row `e` of the result index, column `k` of the left half. -/
theorem w_left (i : S4x256x256x256.Idx) (k : Fin 256) :
    idx_main_v0 (ridx_main_v2 (idx_main_v4 (idx_main_v6 i)) k) = ix2 ⟨(i 3).val, (i 3).isLt⟩ (Cert.PairSpec.col 0 (by decide) k) :=
  funext fun a => Fin.ext (by match a with | ⟨0, _⟩ => rfl | ⟨1, _⟩ => exact (Nat.zero_add _).symm)

/-- Where the right contraction reads `x`: batch and row `j` of the result index, feature `k`. -/
theorem x_at_j (i : S4x256x256x256.Idx) (k : Fin 256) :
    lidx_main_v3 (idx_main_v5 (idx_main_v7 i)) k = ix3 ⟨(i 0).val, (i 0).isLt⟩ ⟨(i 2).val, (i 2).isLt⟩ k :=
  funext fun a => Fin.ext (by match a with | ⟨0, _⟩ => rfl | ⟨1, _⟩ => rfl | ⟨2, _⟩ => rfl)

/-- Where the right contraction reads `W`: row `e` of the result index, column `k` of the right half. -/
theorem w_right (i : S4x256x256x256.Idx) (k : Fin 256) :
    idx_main_v1 (ridx_main_v3 (idx_main_v5 (idx_main_v7 i)) k) = ix2 ⟨(i 3).val, (i 3).isLt⟩ (Cert.PairSpec.col 256 (by decide) k) :=
  funext fun a => Fin.ext (by match a with | ⟨0, _⟩ => rfl | ⟨1, _⟩ => rfl)

/-- Where the bias is read: feature `e` of the result index. -/
theorem b_at (i : S4x256x256x256.Idx) : idx_main_v9 (idx_main_v10 i) = ix1 ⟨(i 3).val, (i 3).isLt⟩ :=
  funext fun a => Fin.ext (by match a with | ⟨0, _⟩ => rfl)

/-! ## The reference's result is the specification -/

theorem reference_eq (x : (⟨S4x256x256, .f32⟩ : BufTy).Contents (Elt Ideal)) (W : (⟨S256x512, .f32⟩ : BufTy).Contents (Elt Ideal))
    (b : (⟨S256, .f32⟩ : BufTy).Contents (Elt Ideal)) :
    val_main_v11 (F := Ideal) x W b = Cert.PairSpec.pairwise x W b := by
  funext i
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, x_at_i, w_left, x_at_j, w_right, b_at, Ideal.addf_def]
  rfl

end Cert.ReferenceIdeal.RefValue

end
-- ==== Proof.lean ====
/-
  The certificate's claims, assembled.

  The kernel computes, for a batch of rows `x : [4, 256, 256]`, a weight `W : [256, 512]` and a bias `b : [256]`, the
  linear layer on every ordered pair of rows of a batch, `[xᵢ ; xⱼ] · Wᵀ + b`, as `xᵢ · W₁ᵀ + xⱼ · W₂ᵀ + b` with `W₁`, `W₂` the
  two halves of `W`: a first call forms the two products, a second call spreads them over the pairs and adds the bias.
  The reference does the same with two contractions and broadcasts. On the extended reals both results are, at
  `(n, i, j, e)`,

      (∑ₖ x[n, i, k] · W[e, k]) + (∑ₖ x[n, j, k] · W[e, 256 + k]) + b[e],

  the same sums of the same products in the same grouping, so no law of arithmetic (and no finiteness of the
  inputs) is needed: the precondition is never opened.

  Both programs' frames are the generated ones (the reference's is its run with the result dropped); the ideal pass
  rewrote nothing, so the idealization claim is trivial.
-/
import proofs.«147406_j55379308314761_1_alg».proof.Defs
import proofs.«147406_j55379308314761_1_alg».proof.Proof.Gen.Kernel
import proofs.«147406_j55379308314761_1_alg».proof.Proof.Gen.Kernel.Skeleton
import proofs.«147406_j55379308314761_1_alg».proof.Proof.Gen.Kernel.Launch
import proofs.«147406_j55379308314761_1_alg».proof.Proof.Gen.Kernel.Points
import proofs.«147406_j55379308314761_1_alg».proof.Proof.Gen.Kernel.Frame
import proofs.«147406_j55379308314761_1_alg».proof.Proof.Gen.KernelIdeal
import proofs.«147406_j55379308314761_1_alg».proof.Proof.Gen.KernelIdeal.Skeleton
import proofs.«147406_j55379308314761_1_alg».proof.Proof.Gen.KernelIdeal.Launch
import proofs.«147406_j55379308314761_1_alg».proof.Proof.Gen.KernelIdeal.Points
import proofs.«147406_j55379308314761_1_alg».proof.Proof.Gen.KernelIdeal.Frame
import proofs.«147406_j55379308314761_1_alg».proof.Proof.Gen.ReferenceIdeal
import proofs.«147406_j55379308314761_1_alg».proof.Proof.Gen.ReferenceIdeal.Run
import proofs.«147406_j55379308314761_1_alg».proof.Proof.Gen.ReferenceIdeal.Read
import proofs.«147406_j55379308314761_1_alg».proof.Proof.Gen.Pre_finite_inputs
import proofs.«147406_j55379308314761_1_alg».proof.Proof.KernelValue
import proofs.«147406_j55379308314761_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the result at the specification of the
    kernel's arguments. -/
theorem algebraic : Cert.algebraic_KernelIdeal_ReferenceIdeal := by
  intro m ρ m' ρ' _ hagree
  refine ⟨fun c => Cert.PairSpec.pairwise (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
